-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024x32000 : Shape := ⟨3, ![4, 1024, 32000]⟩
abbrev S4x1024 : Shape := ⟨2, ![4, 1024]⟩
abbrev S_ : Shape := ⟨0, ![]⟩

class Facts : Prop where
  bcast_S_S4x1024x32000 : S_.BroadcastsInDim S4x1024x32000 (![] : Fin 0 → Fin S4x1024x32000.rank)
  reducesTo_S4x1024x32000_S_d0_1_2 : S4x1024x32000.ReducesTo [0, 1, 2] S_
  h_S_ : 0 < S_.numel
  bcast_S_S4x1024 : S_.BroadcastsInDim S4x1024 (![] : Fin 0 → Fin S4x1024.rank)
  reducesTo_S4x1024_S_d0_1 : S4x1024.ReducesTo [0, 1] S_

variable [Facts]

def fn {F : FTy → Type} [FloatOps F] (main_arg0 : FVec F S4x1024x32000 .f32) (main_arg1 : IVec S4x1024 32) : IVec S_ 1 :=
  let main_v0 : FVec F S4x1024x32000 .f32 := Host.absf main_arg0
  let main_cst : FVec F S_ .f32 := constant S_ .f32 0x7F800000#32
  let main_v1 : FVec F S4x1024x32000 .f32 := broadcastInDim S4x1024x32000 ![] bcast_S_S4x1024x32000 main_cst
  let main_v2 : IVec S4x1024x32000 1 := cmpf .olt main_v0 main_v1
  let main_c : IVec S_ 1 := constantI S_ 1 1#1
  let main_v3 : IVec S_ 1 := (fun x v => Host.reduce IntOp.andi x v reducesTo_S4x1024x32000_S_d0_1_2 h_S_) main_v2 main_c
  let main_c_0 : IVec S_ 32 := constantI S_ 32 0#32
  let main_v4 : IVec S4x1024 32 := broadcastInDim S4x1024 ![] bcast_S_S4x1024 main_c_0
  let main_v5 : IVec S4x1024 1 := cmpi .sge main_arg1 main_v4
  let main_c_1 : IVec S_ 32 := constantI S_ 32 32000#32
  let main_v6 : IVec S4x1024 32 := broadcastInDim S4x1024 ![] bcast_S_S4x1024 main_c_1
  let main_v7 : IVec S4x1024 1 := cmpi .slt main_arg1 main_v6
  let main_v8 : IVec S4x1024 1 := andi main_v5 main_v7
  let main_c_2 : IVec S_ 1 := constantI S_ 1 1#1
  let main_v9 : IVec S_ 1 := (fun x v => Host.reduce IntOp.andi x v reducesTo_S4x1024_S_d0_1 h_S_) main_v8 main_c_2
  let main_v10 : IVec S_ 1 := andi main_v3 main_v9
  main_v10
-- ==== Kernel.lean ====
abbrev S4x1024x32000 : Shape := ⟨3, ![4, 1024, 32000]⟩
abbrev S4x1024 : Shape := ⟨2, ![4, 1024]⟩
abbrev S4096x32000 : Shape := ⟨2, ![4096, 32000]⟩
abbrev S4096x1 : Shape := ⟨2, ![4096, 1]⟩
abbrev S128x32000 : Shape := ⟨2, ![128, 32000]⟩
abbrev S128x1 : Shape := ⟨2, ![128, 1]⟩
abbrev S128 : Shape := ⟨1, ![128]⟩
abbrev S_ : Shape := ⟨0, ![]⟩

abbrev nBuf : Space → Nat
  | .hbm => 7
  | .vmem => 6
  | .smem => 0
  | _ => 0

abbrev bufTy : (tb : Table) → Fin (tcTables nBuf tb) → BufTy
  | .hbm, ⟨0, _⟩ => ⟨S4x1024x32000, .f32⟩
  | .hbm, ⟨1, _⟩ => ⟨S4x1024, .i32⟩
  | .hbm, ⟨2, _⟩ => ⟨S4096x32000, .f32⟩
  | .hbm, ⟨3, _⟩ => ⟨S4096x1, .i32⟩
  | .hbm, ⟨4, _⟩ => ⟨S4096x1, .f32⟩
  | .hbm, ⟨5, _⟩ => ⟨S_, .f32⟩
  | .hbm, ⟨6, _⟩ => ⟨S_, .f32⟩
  | .local _ .vmem, ⟨0, _⟩ => ⟨S128x32000, .f32⟩
  | .local _ .vmem, ⟨1, _⟩ => ⟨S128x32000, .f32⟩
  | .local _ .vmem, ⟨2, _⟩ => ⟨S128x1, .i32⟩
  | .local _ .vmem, ⟨3, _⟩ => ⟨S128x1, .i32⟩
  | .local _ .vmem, ⟨4, _⟩ => ⟨S128x1, .f32⟩
  | .local _ .vmem, ⟨5, _⟩ => ⟨S128x1, .f32⟩
  | _, _ => ⟨S4x1024x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x32000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4x1024x32000_S4096x32000 : S4x1024x32000.ShapeCasts S4096x32000
  shapeCasts_S4x1024_S4096x1 : S4x1024.ShapeCasts S4096x1
  inb_S128x32000_S128x32000_0_0 : ∀ a, (![0, 0] : Fin 2 → Nat) a + S128x32000.size a ≤ S128x32000.size a
  h_S128x32000 : 0 < S128x32000.numel
  shapeCasts_S128x32000_S128x32000 : S128x32000.ShapeCasts S128x32000
  inb_S128x1_S128x1_0_0 : ∀ a, (![0, 0] : Fin 2 → Nat) a + S128x1.size a ≤ S128x1.size a
  h_S128x1 : 0 < S128x1.numel
  shapeCasts_S128x1_S128x1 : S128x1.ShapeCasts S128x1
  iota_S128x32000_d1_w32 : S128x32000.Iotas .tc 32 [1]
  broadcasts_S128x1_S128x32000 : S128x1.Broadcasts S128x32000
  reduces_S128x32000_S128 : S128x32000.Reduces [1] S128
  shapeCasts_S128_S128x1 : S128.ShapeCasts S128x1
  slices_S128x32000_o0_0_S128x1 : S128x32000.Slices ![0, 0] S128x1
  natLt_1_32 : 1 < 32
  reducesTo_S4096x1_S_d0_1 : S4096x1.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x32000.size a ≤ S4096x32000.size a
  hwx0_0 : ∀ i : grid0.Coords, EltTy.bits .f32 = 32 ∨ (Rect.block (s := S4096x32000) S128x32000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1.size a ≤ S4096x1.size a
  hwx0_1 : ∀ i : grid0.Coords, EltTy.bits .i32 = 32 ∨ (Rect.block (s := S4096x1) S128x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S4096x1.size a
  hwx0_2 : ∀ i : grid0.Coords, EltTy.bits .f32 = 32 ∨ (Rect.block (s := S4096x1) S128x1.size (cc0_transform_2 i) (hinb0_2 i)).WholeWords (EltTy.packing .f32)

variable [Facts₀]

abbrev win0_0 : Pipeline.Window sig grid0 :=
  Pipeline.Window.ofSpec (Memref.whole main_v0) S128x32000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S128x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x1024x32000 : Shape := ⟨3, ![4, 1024, 32000]⟩
abbrev S4x1024 : Shape := ⟨2, ![4, 1024]⟩
abbrev S4096x32000 : Shape := ⟨2, ![4096, 32000]⟩
abbrev S4096 : Shape := ⟨1, ![4096]⟩
abbrev S4096x1 : Shape := ⟨2, ![4096, 1]⟩
abbrev S_ : Shape := ⟨0, ![]⟩
abbrev S4096x1x1 : Shape := ⟨3, ![4096, 1, 1]⟩
abbrev S1 : Shape := ⟨1, ![1]⟩
abbrev S1x1x1 : Shape := ⟨3, ![1, 1, 1]⟩

abbrev nBuf : Space → Nat
  | .hbm => 54
  | .vmem => 0
  | .smem => 0
  | _ => 0

abbrev bufTy : (tb : Table) → Fin (tcTables nBuf tb) → BufTy
  | .hbm, ⟨0, _⟩ => ⟨S4x1024x32000, .f32⟩
  | .hbm, ⟨1, _⟩ => ⟨S4x1024, .i32⟩
  | .hbm, ⟨2, _⟩ => ⟨S4096x32000, .f32⟩
  | .hbm, ⟨3, _⟩ => ⟨S4096, .i32⟩
  | .hbm, ⟨4, _⟩ => ⟨S4096x1, .i32⟩
  | .hbm, ⟨5, _⟩ => ⟨S_, .i32⟩
  | .hbm, ⟨6, _⟩ => ⟨S4096x1, .i32⟩
  | .hbm, ⟨7, _⟩ => ⟨S4096x1, .i1⟩
  | .hbm, ⟨8, _⟩ => ⟨S_, .i32⟩
  | .hbm, ⟨9, _⟩ => ⟨S4096x1, .i32⟩
  | .hbm, ⟨10, _⟩ => ⟨S4096x1, .i32⟩
  | .hbm, ⟨11, _⟩ => ⟨S4096x1, .i32⟩
  | .hbm, ⟨12, _⟩ => ⟨S4096x1x1, .i32⟩
  | .hbm, ⟨13, _⟩ => ⟨S1, .i32⟩
  | .hbm, ⟨14, _⟩ => ⟨S_, .i32⟩
  | .hbm, ⟨15, _⟩ => ⟨S4096x1x1, .i32⟩
  | .hbm, ⟨16, _⟩ => ⟨S4096x1x1, .i1⟩
  | .hbm, ⟨17, _⟩ => ⟨S1x1x1, .i32⟩
  | .hbm, ⟨18, _⟩ => ⟨S4096x1x1, .i32⟩
  | .hbm, ⟨19, _⟩ => ⟨S4096x1x1, .i1⟩
  | .hbm, ⟨20, _⟩ => ⟨S4096x1x1, .i1⟩
  | .hbm, ⟨21, _⟩ => ⟨S_, .i1⟩
  | .hbm, ⟨22, _⟩ => ⟨S4096x1, .i1⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096, .f32⟩
  | .hbm, ⟨28, _⟩ => ⟨S4096x1, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S_, .f32⟩
  | .hbm, ⟨33, _⟩ => ⟨S4096, .f32⟩
  | .hbm, ⟨34, _⟩ => ⟨S4096, .f32⟩
  | .hbm, ⟨35, _⟩ => ⟨S_, .f32⟩
  | .hbm, ⟨36, _⟩ => ⟨S4096, .f32⟩
  | .hbm, ⟨37, _⟩ => ⟨S4096, .f32⟩
  | .hbm, ⟨38, _⟩ => ⟨S_, .f32⟩
  | .hbm, ⟨39, _⟩ => ⟨S4096, .f32⟩
  | .hbm, ⟨40, _⟩ => ⟨S4096, .f32⟩
  | .hbm, ⟨41, _⟩ => ⟨S4096, .f32⟩
  | .hbm, ⟨42, _⟩ => ⟨S4096, .f32⟩
  | .hbm, ⟨43, _⟩ => ⟨S_, .f32⟩
  | .hbm, ⟨44, _⟩ => ⟨S4096, .f32⟩
  | .hbm, ⟨45, _⟩ => ⟨S4096, .f32⟩
  | .hbm, ⟨46, _⟩ => ⟨S4096, .f32⟩
  | .hbm, ⟨47, _⟩ => ⟨S_, .i32⟩
  | .hbm, ⟨48, _⟩ => ⟨S4096, .i32⟩
  | .hbm, ⟨49, _⟩ => ⟨S4096, .i1⟩
  | .hbm, ⟨50, _⟩ => ⟨S4096, .f32⟩
  | .hbm, ⟨51, _⟩ => ⟨S4096, .f32⟩
  | .hbm, ⟨52, _⟩ => ⟨S_, .f32⟩
  | .hbm, ⟨53, _⟩ => ⟨S_, .f32⟩
  | _, _ => ⟨S4x1024x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_cst : Ref sig .tc := ⟨.hbm, 24, rfl⟩
abbrev main_call0_v14 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_cst : Ref sig .tc := ⟨.hbm, 30, rfl⟩
abbrev main_v7 : Ref sig .tc := ⟨.hbm, 31, rfl⟩
abbrev main_cst_0 : Ref sig .tc := ⟨.hbm, 32, rfl⟩
abbrev main_v8 : Ref sig .tc := ⟨.hbm, 33, rfl⟩
abbrev main_v9 : Ref sig .tc := ⟨.hbm, 34, rfl⟩
abbrev main_cst_1 : Ref sig .tc := ⟨.hbm, 35, rfl⟩
abbrev main_v10 : Ref sig .tc := ⟨.hbm, 36, rfl⟩
abbrev main_v11 : Ref sig .tc := ⟨.hbm, 37, rfl⟩
abbrev main_cst_2 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_cst_3 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_c : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_cst_4 : Ref sig .tc := ⟨.hbm, 52, rfl⟩
abbrev main_v23 : Ref sig .tc := ⟨.hbm, 53, rfl⟩

abbrev nD : Nat := 1
abbrev τ : Topo := Topo.v7x

variable {F : FTy → Type} [FloatOps F]

class Facts₀ : Prop where
  shapeCasts_S4x1024x32000_S4096x32000 : S4x1024x32000.ShapeCasts S4096x32000
  shapeCasts_S4x1024_S4096 : S4x1024.ShapeCasts S4096
  bcast_S4096_S4096x1_0 : S4096.BroadcastsInDim S4096x1 (![0] : Fin 1 → Fin S4096x1.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  h_S_ : 0 < S_.numel
  shapeCasts_S4096x1_S4096 : S4096x1.ShapeCasts S4096
  slices_S4096x32000_S4096x1_0_0 : S4096x32000.Slices ![0, 0] S4096x1
  reducesTo_S4096x32000_S4096_d1 : S4096x32000.ReducesTo [1] S4096
  bcast_S_S4096 : S_.BroadcastsInDim S4096 (![] : Fin 0 → Fin S4096.rank)
  reducesTo_S4096_S_d0 : S4096.ReducesTo [0] S_
  gather_S4096x32000_S4096x1x1_S4096x1_n_1_0_0_1_2_11_wf : GatherDims.WF S4096x32000 S4096x1x1 S4096x1 [] [1] [0] [1] [0] 2 ![1, 1]

variable [Facts₀]

def gather_S4096x32000_S4096x1x1_S4096x1_n_1_0_0_1_2_11 : GatherDims S4096x32000 S4096x1x1 S4096x1 where
  offsetDims := []
  collapsedSliceDims := [1]
  operandBatchingDims := [0]
  startIndicesBatchingDims := [0]
  startIndexMap := [1]
  indexVectorDim := 2
  sliceSizes := ![1, 1]
  wf := gather_S4096x32000_S4096x1x1_S4096x1_n_1_0_0_1_2_11_wf

class Facts : Prop extends Facts₀ where

variable [Facts]
-- ==== Proof.Spec.lean ====
/-
  Label-smoothed cross entropy, summed over 4096 rows of 32000 log-probabilities.

  For a row `lp` and its target word `t` the row's loss is
      (conf * (log conf - lp[t]) + c - sm * ((Σ_v lp[v] - lp[t]) - lp[0])) * [t ≠ 0]
  with four fixed single-precision constants, the same words in both programs, and the result is the sum of the
  rows' losses. The one place where the two programs differ is how they take `lp[t]`: one program reads the entry at
  column `t`; the other adds up, over all columns `v`, the entry at `v` where `v = t` and zero elsewhere. When `t` is a
  column's number the sum has exactly one non-zero term, the entry at `t` (`pick_of_lt`), and adding zeros changes nothing
  on the extended reals, so no finiteness is needed.
-/
import Idealize.ShloMosaic.PureOps.Ideal
import Idealize.ShloMosaic.PureOps.Ideal.Laws
import Idealize.ShloMosaic.Lib.ValueIdx
import Idealize.ShloMosaic.Lib.StableHlo.Predicate

noncomputable section

namespace Cert.Xent

open Idealize.ShloMosaic Idealize.ShloMosaic.ValueIdx

/-- The log-probabilities as a table: 4096 rows (token positions), 32000 columns (vocabulary entries). -/
abbrev SRV : Shape := ⟨2, ![4096, 32000]⟩
/-- One entry per row, kept as a column. -/
abbrev SR1 : Shape := ⟨2, ![4096, 1]⟩

/-- A row's entry at the column a 32-bit word names, taken by comparison: the sum over the columns of the entry where
    the column's number is the word and of zero elsewhere. -/
def pick (row : Fin 32000 → EReal) (t : BitVec 32) : EReal :=
  ∑ v : Fin 32000, Scalar.select (IntOp.cmpi .eq (BitVec.ofNat 32 v.val) t) (row v) (Ideal.ofBits .f32 0x00000000#32)

/-- When the word is a column's number, only that column's term is non-zero: the sum is the entry there. -/
theorem pick_of_lt (row : Fin 32000 → EReal) (t : BitVec 32) (h : t.toNat < 32000) :
    pick row t = row ⟨t.toNat, h⟩ := by
  unfold pick
  rw [Finset.sum_eq_single (⟨t.toNat, h⟩ : Fin 32000)]
  · have e : IntOp.cmpi .eq (BitVec.ofNat 32 t.toNat) t = 1#1 :=
      StableHlo.Predicate.cmpi_eq_iff.mpr (BitVec.eq_of_toNat_eq (by simp [BitVec.toNat_ofNat]))
    rw [e, select_one]
  · intro v _ hv
    have e : IntOp.cmpi .eq (BitVec.ofNat 32 v.val) t = 0#1 := by
      apply eq_zero_of_ne_one
      intro h1
      have h2 := StableHlo.Predicate.cmpi_eq_iff.mp h1
      apply hv
      apply Fin.ext
      have h3 := congrArg BitVec.toNat h2
      simp only [BitVec.toNat_ofNat] at h3
      have := v.isLt
      show v.val = t.toNat
      omega
    rw [e, select_zero, Ideal.ofBits_zero_f32]
  · intro h'; exact absurd (Finset.mem_univ _) h'

/-- The weight of a row: 1 when its target is not the padding entry 0, else 0. -/
def keep (t : BitVec 32) : EReal := (((IntOp.cmpi .ne t 0#32).toNat : ℝ) : EReal)

/-- A one-bit word widened to 32 bits and read signed is the bit. -/
theorem toInt_setWidth_bit : ∀ b : BitVec 1, (b.setWidth 32).toInt = (b.toNat : Int) := by decide

/-- The loss of one row from its three readings (the target's entry, the row's sum, the padding entry) and its weight. -/
def rowLoss (lpt lsum lpad w : EReal) : EReal :=
  (Ideal.ofBits .f32 0x3F666666#32 * (Ideal.ofBits .f32 0xBDD7C741#32 - lpt) + Ideal.ofBits .f32 0xBFA240C3#32
    - Ideal.ofBits .f32 0x3651BA72#32 * (lsum - lpt - lpad)) * w

/-- Every row's loss, as a column: row `i 0` of the table against the word at `i`. -/
def rows (lp : FVec Ideal SRV .f32) (tg : IVec SR1 32) : FVec Ideal SR1 .f32 := fun i =>
  rowLoss (pick (fun v => lp (ix2 (i 0) v)) (tg i)) (∑ v : Fin 32000, lp (ix2 (i 0) v))
    (lp (ix2 (i 0) (⟨0, by decide⟩ : Fin 32000))) (keep (tg i))

/-- The whole loss: the rows' losses added up from zero. -/
def total (lp : FVec Ideal SRV .f32) (tg : IVec SR1 32) : EReal :=
  Ideal.ofBits .f32 0x00000000#32 + ∑ i : SR1.Idx, rows lp tg i

/-- A sum over the one-column indices is the sum over the rows. -/
theorem sum_SR1 (f : SR1.Idx → EReal) : ∑ i : SR1.Idx, f i = ∑ r : Fin 4096, f (ix2 r (0 : Fin 1)) := by
  rw [sum_idx2]
  exact Finset.sum_congr rfl fun r _ => Fin.sum_univ_one _

end Cert.Xent

end
-- ==== Proof.BlockOps.lean ====
/-
  A block of 128 rows of the table, read entry by entry: the sum along the lanes of a [128, 32000] block, kept as a
  [128, 1] column, is at row p the sum over the 32000 columns; a [128, 1] column broadcast over the lanes reads, at
  (p, v), the column's entry at row p; the slice of the first column reads the block at (p, 0); the lane counter at
  (p, v) is the word v. And the two conversions of the one-bit test "target ≠ 0" to a float (widen, then read signed;
  read the bit unsigned) give the same 0 or 1.
-/
import Idealize.ShloMosaic.PureOps.Ideal
import Idealize.ShloMosaic.PureOps.Ideal.Laws
import Idealize.ShloMosaic.Lib.ValueIdx
import Idealize.ShloMosaic.Lib.Pipeline.Value
import proofs.«407399_j77455440216461_3_alg».proof.Proof.Spec

noncomputable section

namespace Cert.Xent

open Idealize.ShloMosaic Idealize.ShloMosaic.ValueIdx

/-- A block: 128 rows of the table. -/
abbrev SB : Shape := ⟨2, ![128, 32000]⟩
/-- One entry per row of a block, as a column. -/
abbrev SB1 : Shape := ⟨2, ![128, 1]⟩
/-- One entry per row of a block. -/
abbrev SL : Shape := ⟨1, ![128]⟩

/-- The sum along the lanes, kept as a column: at row p, the sum of the block's row p over the 32000 columns. -/
theorem laneSum_apply (y : FVec Ideal SB .f32) (hr : SB.Reduces [1] SL) (hφ : FKind.Formats .f32)
    (hacc : (0x00000000#32 : BitVec 32) = FKind.add.neutral .f32 hφ) (hc : SL.ShapeCasts SB1) (p : Fin 128) (q : Fin 1) :
    shapeCast SB1 (multiReduction .add [1] SL y 0x00000000#32 hr hφ hacc) hc (ix2 p q) = ∑ v : Fin 32000, y (ix2 p v) := by
  refine (shapeCast_apply _ hc (ix2 p q) (ix1 p) ?_).trans ?_
  · rw [Shape.rowMajor_val_one, Shape.rowMajor_val_two]
    have hq : q.val < 1 := q.isLt
    show p.val = p.val * 1 + q.val
    omega
  · rw [Ideal.multiReduction_add_single]
    exact Finset.sum_congr rfl fun k _ => congrArg y (funext fun a => Fin.ext (by
      match a with
      | ⟨0, _⟩ => rfl
      | ⟨1, _⟩ => rfl))

/-- A column broadcast over the lanes reads, at (p, v), the column's entry at row p. -/
theorem laneBroadcast_apply {α : Type} (x : SB1.Idx → α) (hb : SB1.Broadcasts SB) (p : Fin 128) (v : Fin 32000) :
    broadcastTo SB x hb (ix2 p v) = x (ix2 p (0 : Fin 1)) :=
  broadcastTo_apply x hb (ix2 p v) (ix2 p (0 : Fin 1)) (fun a => match a with
    | ⟨0, _⟩ => by show p.val = if (128 : Nat) = 1 then 0 else p.val; rw [if_neg (by decide)]
    | ⟨1, _⟩ => by show 0 = if (1 : Nat) = 1 then 0 else v.val; rw [if_pos rfl])

/-- The slice of the first column reads the block at (p, 0). -/
theorem firstColumn_apply {α : Type} (y : SB.Idx → α) (hs : SB.Slices ![0, 0] SB1) (p : Fin 128) (q : Fin 1) :
    extractStridedSlice SB1 ![0, 0] y hs (ix2 p q) = y (ix2 p (⟨0, by decide⟩ : Fin 32000)) :=
  extractStridedSlice_apply ![0, 0] y hs (ix2 p q) (ix2 p (⟨0, by decide⟩ : Fin 32000)) (fun a => match a with
    | ⟨0, _⟩ => by show p.val = 0 + p.val; omega
    | ⟨1, _⟩ => by have hq : q.val < 1 := q.isLt; show 0 = 0 + q.val; omega)

/-- The lane counter at (p, v) is the word v. -/
theorem laneIota_apply (hi : SB.Iotas .tc 32 [1]) (p : Fin 128) (v : Fin 32000) :
    iota .tc SB 32 [1] hi (ix2 p v) = BitVec.ofNat 32 v.val :=
  iota_single_apply .tc SB 32 1 hi (ix2 p v)

/-- The weight read off the widened bit, signed, is the weight. -/
theorem keep_signed (t : BitVec 32) :
    FloatOps.sitofp (F := Ideal) .f32 ((IntOp.cmpi .ne t 0#32).setWidth 32) = keep t := by
  show (((((IntOp.cmpi .ne t 0#32).setWidth 32).toInt : ℝ)) : EReal) = _
  unfold keep
  rw [toInt_setWidth_bit]
  norm_cast

/-- The weight read off the bit, unsigned, is the weight. -/
theorem keep_unsigned (t : BitVec 32) :
    FloatOps.uitofp (F := Ideal) .f32 (IntOp.cmpi .ne t 0#32) = keep t := rfl

end Cert.Xent

end
-- ==== Proof.KernelRow.lean ====
/-
  One row of the kernel's block. The body computes, for each of the 128 rows of a block, the row's loss from the
  block's row and the row's target word: the target's entry by comparison with the lane counter (`pick`), the
  row's sum along the lanes, the first column, and the weight "target ≠ 0".
-/
import proofs.«407399_j77455440216461_3_alg».proof.Proof.Gen.KernelIdeal.Skeleton
import proofs.«407399_j77455440216461_3_alg».proof.Proof.BlockOps

noncomputable section

namespace Cert.Xent

open Cert.KernelIdeal Cert.KernelIdeal.Gen Idealize.ShloMosaic Idealize.ShloMosaic.ValueIdx

/-- What the body stores at row p of its output column is the loss of row p of its block against the block's target
    word at row p. -/
theorem pay_row (x0 : Vec Ideal S128x32000 .f32) (x1 : Vec Ideal S128x1 .i32) (p : Fin 128) (q : Fin 1) :
    k0_pay1 (F := Ideal) x0 x1 (ix2 p q)
      = rowLoss (pick (fun v => x0 (ix2 p v)) (x1 (ix2 p (0 : Fin 1)))) (∑ v : Fin 32000, x0 (ix2 p v))
          (x0 (ix2 p (⟨0, by decide⟩ : Fin 32000))) (keep (x1 (ix2 p (0 : Fin 1)))) := by
  have hq : q = 0 := Subsingleton.elim _ _
  subst hq
  -- the compared-and-selected block, summed along the lanes at row p, is the picked entry
  have hpick : (∑ v : Fin 32000, select (cmpi .eq (iota .tc S128x32000 32 [1] iota_S128x32000_d1_w32)
        (broadcastTo S128x32000 x1 broadcasts_S128x1_S128x32000)) x0
        (broadcast S128x32000 (FloatOps.ofBits (F := Ideal) .f32 0x00000000#32)) (ix2 p v))
      = pick (fun v => x0 (ix2 p v)) (x1 (ix2 p (0 : Fin 1))) := by
    unfold pick
    refine Finset.sum_congr rfl fun v _ => ?_
    show Scalar.select (IntOp.cmpi .eq (iota .tc S128x32000 32 [1] iota_S128x32000_d1_w32 (ix2 p v))
        (broadcastTo S128x32000 x1 broadcasts_S128x1_S128x32000 (ix2 p v))) (x0 (ix2 p v))
        (Ideal.ofBits .f32 0x00000000#32) = _
    rw [laneIota_apply, laneBroadcast_apply]
  have hkeep : FloatOps.sitofp (F := Ideal) .f32
        (BitVec.setWidth 32 (cmpi .ne x1 (broadcast S128x1 0#32) (ix2 p (0 : Fin 1))))
      = keep (x1 (ix2 p (0 : Fin 1))) := keep_signed _
  unfold k0_pay1 rowLoss
  simp only [shapeCast_self, mulf_apply, subf_apply, addf_apply, broadcast_apply, sitofp_apply, extui_apply]
  refine congrArg₂ (· * ·) (congrArg₂ (· - ·) (congrArg₂ (· + ·) (congrArg₂ (· * ·) rfl (congrArg₂ (· - ·) rfl ?_)) rfl)
    (congrArg₂ (· * ·) rfl (congrArg₂ (· - ·) (congrArg₂ (· - ·) ?_ ?_) ?_))) hkeep
  · exact (laneSum_apply _ _ _ _ _ p 0).trans hpick
  · exact laneSum_apply _ _ _ _ _ p 0
  · exact (laneSum_apply _ _ _ _ _ p 0).trans hpick
  · exact firstColumn_apply _ _ p 0

end Cert.Xent

end
-- ==== Proof.Sums.lean ====
/-
  Two re-indexings of the final sum. The rows' losses are added up once as a [4096, 1] column reduced over both
  axes and once as a length-4096 vector reduced over its axis; both are the initial value plus the sum over the 4096
  rows.
-/
import Idealize.ShloMosaic.PureOps.Ideal
import Idealize.ShloMosaic.PureOps.Ideal.Laws
import Idealize.ShloMosaic.PureOps.Contract
import Idealize.ShloMosaic.Lib.ValueIdx
import proofs.«407399_j77455440216461_3_alg».proof.Proof.Spec

noncomputable section

namespace Cert.Xent

open Idealize.ShloMosaic Idealize.ShloMosaic.ValueIdx

/-- One entry per row. -/
abbrev SR : Shape := ⟨1, ![4096]⟩

/-- The length-4096 indices are the rows. -/
def rowEquiv : Fin 4096 ≃ SR.Idx where
  toFun r := ix1 r
  invFun j := j 0
  left_inv _ := rfl
  right_inv j := (eq_ix1 j).symm

/-- A sum over the length-4096 indices is the sum over the rows. -/
theorem sum_SR (f : SR.Idx → EReal) : ∑ j : SR.Idx, f j = ∑ r : Fin 4096, f (ix1 r) :=
  (Fintype.sum_equiv rowEquiv (fun r => f (ix1 r)) f (fun _ => rfl)).symm

/-- The host's sum of a column over both its axes, into a result all of whose axes have size one: the initial value
    plus the sum of the column. -/
theorem hostSum_column (X : FVec Ideal SR1 .f32) {S0 U : Shape} (hS0 : ∀ b : Fin S0.rank, S0.size b = 1)
    (h : SR1.ReducesTo [0, 1] S0) (hu : 0 < U.numel) (init : U.Idx → Ideal .f32) (i : S0.Idx) :
    Host.reduceAdd X init h hu i = init (Shape.Idx.first hu) + ∑ j : SR1.Idx, X j := by
  simp only [Host.reduceAdd, Ideal.hostReduceAdd_def]
  exact Ideal.hostReduceAdd_total h hS0 X _ i

end Cert.Xent

end
-- ==== Proof.KernelValue.lean ====
/-
  What the kernel's run leaves in its result. The grid has 32 points; point t works on rows 128 t … 128 t + 127 of the
  table (all 32000 columns) and of the target column, and writes the 128 rows' losses to the same rows of a [4096, 1]
  column. The 32 blocks tile the column, so after the region the column holds every row's loss (`rows`); the host
  then adds the column up from zero (`total`). The table and the target column are the two arguments reshaped.
-/
import proofs.«407399_j77455440216461_3_alg».proof.Proof.Gen.KernelIdeal.Frame
import proofs.«407399_j77455440216461_3_alg».proof.Proof.KernelRow
import proofs.«407399_j77455440216461_3_alg».proof.Proof.Sums
import Idealize.ShloMosaic.Lib.Pipeline.Value
import Idealize.ShloMosaic.Lib.StableHlo.Run

set_option maxRecDepth 16384

noncomputable section

namespace Cert.Xent.KernelValue

open Cert.Xent Cert.KernelIdeal Cert.KernelIdeal.Gen
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-- The table as the region finds it. -/
abbrev lpArr (c : Dev nD) : FVec Ideal SRV .f32 := V m c main_v0
/-- The target column as the region finds it. -/
abbrev tgArr (c : Dev nD) : IVec SR1 32 := V m c main_v1

theorem hz : (![0, 0] : Fin 2 → Nat) = fun _ => 0 := funext fun a => by fin_cases a <;> rfl

/-- The index maps over the grid: at point t all three windows are at block row t's own row and block column 0, and
    there are 32 block rows. -/
theorem idx_facts : ∀ t : Fin cfg0.N, win0_0.index t (0 : Fin 2) = win0_2.index t (0 : Fin 2)
    ∧ win0_0.index t (1 : Fin 2) = 0
    ∧ win0_1.index t (0 : Fin 2) = win0_2.index t (0 : Fin 2)
    ∧ win0_1.index t (1 : Fin 2) = 0
    ∧ win0_2.index t (1 : Fin 2) = 0
    ∧ win0_2.index t (0 : Fin 2) ≤ 31 :=
  (by decide +kernel : ∀ t : Fin grid0.N, _)

/-- Every block row is some point's. -/
theorem idx_onto : ∀ b : Fin 32, ∃ t : Fin cfg0.N, win0_2.index t = ![b.val, 0] :=
  (by decide +kernel : ∀ b : Fin 32, ∃ t : Fin grid0.N, win0_2.index t = ![b.val, 0])

/-- What point t writes back is block t of the column of the rows' losses. -/
theorem flushed_eq (c : Dev nD) (t : Fin cfg0.N) :
    (dats m 0 c).flushed 2 t = ((cfg0.win 2).blk t).view.read (Elt Ideal) (rows (lpArr m c) (tgArr m c)) := by
  show (cfg0.win 2).cut (grid0.coords t) ((dats m 0 c).after 2 t) = _
  rw [after0_2]
  unfold out0_2
  rw [View.canon_unit_zero hz]
  simp only [View.ld_unit_zero (S := S128x32000) hz, View.ld_unit_zero (S := S128x1) hz]
  obtain ⟨e0, e1, e2, e3, e4, e5⟩ := idx_facts t
  funext j
  obtain ⟨p, q, rfl⟩ : ∃ (p : Fin 128) (q : Fin 1), j = ix2 p q := ⟨j 0, j 1, eq_ix2 j⟩
  refine (pay_row (iblk m c 0 t) (iblk m c 1 t) p q).trans ?_
  have hq : q.val < 1 := q.isLt
  have h0 : ∀ v : Fin 32000, ((cfg0.win 0).blk t).view.emb (ix2 p v)
      = ix2 ((((cfg0.win 2).blk t).view.emb (ix2 p q)) 0) v := by
    intro v
    funext a; apply Fin.ext
    match a with
    | ⟨0, _⟩ => show win0_0.index t (0 : Fin 2) * 128 + 1 * p.val = win0_2.index t (0 : Fin 2) * 128 + 1 * p.val; omega
    | ⟨1, _⟩ => show win0_0.index t (1 : Fin 2) * 32000 + 1 * v.val = v.val; omega
  have h1 : ((cfg0.win 1).blk t).view.emb (ix2 p (0 : Fin 1)) = ((cfg0.win 2).blk t).view.emb (ix2 p q) := by
    funext a; apply Fin.ext
    match a with
    | ⟨0, _⟩ => show win0_1.index t (0 : Fin 2) * 128 + 1 * p.val = win0_2.index t (0 : Fin 2) * 128 + 1 * p.val; omega
    | ⟨1, _⟩ => show win0_1.index t (1 : Fin 2) * 1 + 1 * 0 = win0_2.index t (1 : Fin 2) * 1 + 1 * q.val; omega
  show rowLoss (pick (fun v => lpArr m c (((cfg0.win 0).blk t).view.emb (ix2 p v)))
        (tgArr m c (((cfg0.win 1).blk t).view.emb (ix2 p (0 : Fin 1)))))
      (∑ v : Fin 32000, lpArr m c (((cfg0.win 0).blk t).view.emb (ix2 p v)))
      (lpArr m c (((cfg0.win 0).blk t).view.emb (ix2 p (⟨0, by decide⟩ : Fin 32000))))
      (keep (tgArr m c (((cfg0.win 1).blk t).view.emb (ix2 p (0 : Fin 1)))))
    = rows (lpArr m c) (tgArr m c) (((cfg0.win 2).blk t).view.emb (ix2 p q))
  unfold rows
  simp only [h0, h1]
  rfl

/-- An index of the column is in point t's block iff its row is among the block's 128 rows. -/
theorem mem_blk (t : Fin cfg0.N) (i : S4096x1.Idx) :
    i ∈ ((cfg0.win 2).blk t).view.set ↔ ∀ a : Fin 2, win0_2.index t a * S128x1.size a ≤ (i a).val
      ∧ (i a).val < win0_2.index t a * S128x1.size a + S128x1.size a := by
  show i ∈ ((View.whole main_v2).slice (win0_2.rect t)).set ↔ _
  rw [View.set_slice_whole, Rect.mem_set_unit]
  exact Iff.rfl

/-- The 32 blocks tile the column: row r is in the block of the point at block row r / 128. -/
theorem cover (i : S4096x1.Idx) :
    ∃ t : Fin cfg0.N, (cfg0.win 2).flush t = true ∧ i ∈ ((cfg0.win 2).blk t).view.set := by
  have hi0 : (i 0).val < 4096 := (i 0).isLt
  have hi1 : (i 1).val < 1 := (i 1).isLt
  obtain ⟨t, ht⟩ := idx_onto ⟨(i 0).val / 128, by omega⟩
  have q0 : win0_2.index t (0 : Fin 2) = (i 0).val / 128 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 128 ≤ (i 0).val ∧ (i 0).val < win0_2.index t (0 : Fin 2) * 128 + 128; omega
  | ⟨1, _⟩ => show win0_2.index t (1 : Fin 2) * 1 ≤ (i 1).val ∧ (i 1).val < win0_2.index t (1 : Fin 2) * 1 + 1; omega

/-- After the region the column holds every row's loss. -/
theorem final (c : Dev nD) : (dats m 0 c).arrAt 2 cfg0.N = rows (lpArr m c) (tgArr m c) :=
  (dats m 0 c).arrAt_eq_of_cover 2 (rows (lpArr m c) (tgArr m c)) (fun t _ => flushed_eq m c t) cover

/-- The table the region finds is the first argument reshaped to 4096 rows. -/
theorem lpArr_eq (c : Dev nD) :
    lpArr m c = shapeCast S4096x32000 (m ((c : Thread nD τ).loc main_arg0)) shapeCasts_S4x1024x32000_S4096x32000 := by
  show StableHlo.after hostOps0 (fun b => m (c, b)) (Proc.devRef .tc main_v0) = _
  after_results
  rfl

/-- The target column the region finds is the second argument reshaped to a column of 4096 words. -/
theorem tgArr_eq (c : Dev nD) :
    tgArr m c = shapeCast S4096x1 (m ((c : Thread nD τ).loc main_arg1)) shapeCasts_S4x1024_S4096x1 := by
  show StableHlo.after hostOps0 (fun b => m (c, b)) (Proc.devRef .tc main_v1) = _
  after_results
  rfl

/-- The host's sum of the column, from zero, is the whole loss. -/
theorem tail_eq (c : Dev nD) :
    Pipeline.afterTail₀ cfgs (dats m) 0 (V0 m) [hostOps1] c main_v3 = fun _ => total (lpArr m c) (tgArr m c) := by
  unfold Pipeline.afterTail₀
  show StableHlo.after hostOps1 _ (Proc.devRef .tc main_v3) = _
  after_results
  have hw : Pipeline.withArrays (cfgs 0).spec c (V0 m c) (fun w => (dats m 0 c).arrAt w (cfgs 0).N)
      (Proc.devRef .tc main_v2) = rows (lpArr m c) (tgArr m c) :=
    (Pipeline.withArrays_arr spec0 launch0.win.arr_inj c _ _ 2).trans (final m c)
  rw [hw]
  funext i
  exact hostSum_column _ (fun b => b.elim0) _ _ _ i

/-- The kernel's run, read: the result is the whole loss of the table and the target column the region finds, and
    the arguments end as they were. -/
theorem run : θ_run defs (onTc (τ := τ) (main (F := Ideal))) ⟨m, fun _ => 0, ρ⟩ fun r => ∀ c : Dev nD,
      r.2.mem ((c.tc : Thread nD τ).loc main_v3) = (fun _ => total (lpArr m c) (tgArr m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v3 (Pipeline.mem_restRefs_of main_v3 (by decide) (by decide))).trans (tail_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.Xent.KernelValue

end
-- ==== Proof.LibGatherRows.lean ====
import Idealize.ShloMosaic.PureOps.ShapeOps
import Idealize.ShloMosaic.Lib.ValueIdx

/-! A row-wise take: a gather whose operand [R, C] and start indices [R, P, 1] share their first axis as a batching axis,
    and whose one-component start index names the operand's column. Result element (r, p) is the operand's row r at
    the column idx[r, p, 0], read signed and clamped into [0, C - 1]. -/

namespace Cert.GatherRows

open Idealize.ShloMosaic Idealize.ShloMosaic.ValueIdx

variable {α : Type} {R C P w : Nat}

/-- THE ROW-WISE TAKE READ AT (r, p): the operand's row r at the column idx[r, p, 0], read signed and clamped into
    [0, C - 1]. The row axis is a batching axis (start 0, batching coordinate the result's row, no offset); the column
    axis is collapsed (the clamped start index, no batching coordinate, no offset). -/
theorem gather_rows_apply (hC : 0 < C) (d : GatherDims ⟨2, ![R, C]⟩ ⟨3, ![R, P, 1]⟩ ⟨2, ![R, P]⟩)
    (h1 : d.offsetDims = []) (h2 : d.collapsedSliceDims = [1]) (h3 : d.operandBatchingDims = [0])
    (h4 : d.startIndicesBatchingDims = [0]) (h5 : d.startIndexMap = [1]) (h6 : d.indexVectorDim = 2)
    (h7 : d.sliceSizes = ![1, 1])
    (x : (⟨2, ![R, C]⟩ : Shape).Idx → α) (idx : IVec ⟨3, ![R, P, 1]⟩ w) (r : Fin R) (p : Fin P) :
    Host.gather d x idx (ix2 r p)
      = x (ix2 r ⟨min (idx (ix3 r p (0 : Fin 1))).toInt.toNat (C - 1), by omega⟩) := by
  obtain ⟨od, cs, ob, sb, sim, iv, ss, wf⟩ := d
  simp only at h1 h2 h3 h4 h5 h6 h7
  subst h1 h2 h3 h4 h5 h6 h7
  unfold Host.gather
  congr 1
  funext a
  refine Fin.ext ?_
  have m00 : (0 : Fin 2) ∈ ([0] : List (Fin 2)) := List.mem_singleton.mpr rfl
  have m11 : (1 : Fin 2) ∈ ([1] : List (Fin 2)) := List.mem_singleton.mpr rfl
  have n10 : (1 : Fin 2) ∉ ([0] : List (Fin 2)) := by decide
  match a with
  | ⟨0, _⟩ =>
    show GatherDims.start _ (ix2 r p) idx 0 + GatherDims.batchCoord _ (ix2 r p) 0 + GatherDims.offCoord _ (ix2 r p) 0 = r.val
    rw [GatherDims.start_batching _ _ _ _ m00,
      GatherDims.offCoord_eq_zero _ _ _ (fun h => ((GatherDims.mem_sKept _ _).mp h).2 m00)]
    unfold GatherDims.batchCoord
    rw [dif_pos m00]
    simp only [Nat.zero_add, Nat.add_zero]
    rfl
  | ⟨1, _⟩ =>
    show GatherDims.start _ (ix2 r p) idx 1 + GatherDims.batchCoord _ (ix2 r p) 1 + GatherDims.offCoord _ (ix2 r p) 1 = _
    rw [GatherDims.batchCoord_eq_zero _ _ _ n10,
      GatherDims.offCoord_eq_zero _ _ _ (fun h => ((GatherDims.mem_sKept _ _).mp h).1 m11)]
    simp only [Nat.add_zero]
    unfold GatherDims.start
    rw [dif_pos m11]
    have hsi : ∀ c, GatherDims.siIdx (s := ⟨2, ![R, C]⟩) (si := ⟨3, ![R, P, 1]⟩) (t := ⟨2, ![R, P]⟩)
        ⟨[], [1], [0], [0], [1], 2, ![1, 1], wf⟩ (ix2 r p) c = ix3 r p (0 : Fin 1) := by
      intro c
      funext b; refine Fin.ext ?_
      match b with
      | ⟨0, _⟩ => rfl
      | ⟨1, _⟩ => rfl
      | ⟨2, _⟩ => have := c.isLt; simp only [List.length_singleton] at this; show c.val = 0; omega
    rw [hsi]
    rfl

/-- The row-wise take read at (r, p) when the start index idx[r, p, 0], read signed, is a column's number: the
    operand's entry at row r and that column. -/
theorem gather_rows_apply_of_lt (d : GatherDims ⟨2, ![R, C]⟩ ⟨3, ![R, P, 1]⟩ ⟨2, ![R, P]⟩)
    (h1 : d.offsetDims = []) (h2 : d.collapsedSliceDims = [1]) (h3 : d.operandBatchingDims = [0])
    (h4 : d.startIndicesBatchingDims = [0]) (h5 : d.startIndexMap = [1]) (h6 : d.indexVectorDim = 2)
    (h7 : d.sliceSizes = ![1, 1])
    (x : (⟨2, ![R, C]⟩ : Shape).Idx → α) (idx : IVec ⟨3, ![R, P, 1]⟩ w) (r : Fin R) (p : Fin P)
    (h0 : 0 ≤ (idx (ix3 r p (0 : Fin 1))).toInt) (hlt : (idx (ix3 r p (0 : Fin 1))).toInt < (C : Int)) :
    Host.gather d x idx (ix2 r p) = x (ix2 r ⟨(idx (ix3 r p (0 : Fin 1))).toInt.toNat, by omega⟩) := by
  have hC : 0 < C := by omega
  rw [gather_rows_apply hC d h1 h2 h3 h4 h5 h6 h7 x idx r p]
  congr 2
  apply Fin.ext
  show min (idx (ix3 r p (0 : Fin 1))).toInt.toNat (C - 1) = (idx (ix3 r p (0 : Fin 1))).toInt.toNat
  omega

end Cert.GatherRows
-- ==== Proof.RefValue.lean ====
/-
  What the reference computes, read row by row. It reshapes the log-probabilities to a table of 4096 rows and the
  targets to a column, takes each row's entry at its target with a gather (a negative target wrapped by 32000, the
  result replaced by NaN where the wrapped target is outside 0 … 31999), the first column by a slice, the row's sum, and
  combines them with the same constants as the kernel; the rows' losses, weighted by "target ≠ 0", are added up from
  zero. When every target is a column's number, 0 ≤ t < 32000, the wrap and the replacement do nothing and the gather
  reads the entry at t — which is what the comparison sum `pick` gives: each row's loss is `rows` at that row and the
  result is `total`.
-/
import proofs.«407399_j77455440216461_3_alg».proof.Proof.Gen.ReferenceIdeal.Run
import proofs.«407399_j77455440216461_3_alg».proof.Proof.Gen.ReferenceIdeal.Read
import proofs.«407399_j77455440216461_3_alg».proof.Proof.BlockOps
import proofs.«407399_j77455440216461_3_alg».proof.Proof.Sums
import proofs.«407399_j77455440216461_3_alg».proof.Proof.LibGatherRows
import Idealize.ShloMosaic.Lib.StableHlo.Predicate
import Idealize.ShloMosaic.PureOps.Reduce

noncomputable section

namespace Cert.Xent.RefValue

open Cert.Xent Cert.ReferenceIdeal Cert.ReferenceIdeal.Gen Cert.ReferenceIdeal.Read
open Idealize.ShloMosaic Idealize.ShloMosaic.ValueIdx

variable (x0 : (⟨S4x1024x32000, .f32⟩ : BufTy).Contents (Elt Ideal))
  (x1 : (⟨S4x1024, .i32⟩ : BufTy).Contents (Elt Ideal))

/-- A fold of one-bit "and" from 1 over a list of 1s is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..), show IntOp.andi (1#1 : BitVec 1) 1#1 = 1#1 from by decide]
    exact foldl_andi_one f l (fun n hn => h n (List.mem_cons_of_mem _ hn))

/-- The gather's start index of row r is the row's target itself when the target is not negative: the wrap of
    negative targets does nothing. -/
theorem idxWord (r : Fin 4096) (a b : Fin 1)
    (h : (val_main_v2 (F := Ideal) x1 (ix2 r (0 : Fin 1))).toNat < 32000) :
    val_main_call0_v5 (F := Ideal) x1 (ix3 r a b) = val_main_v2 (F := Ideal) x1 (ix2 r (0 : Fin 1)) := by
  have e : idx_main_call0_v5 (ix3 r a b) = ix2 r (0 : Fin 1) := by
    funext d; apply Fin.ext
    match d with
    | ⟨0, _⟩ =>
      have h1 : a.val < 1 := a.isLt
      have h2 : b.val < 1 := b.isLt
      show ((r.val * 1 + a.val) * 1 + b.val) / 1 = r.val
      omega
    | ⟨1, _⟩ => rfl
  have hs : IntOp.cmpi .slt (val_main_v2 (F := Ideal) x1 (ix2 r (0 : Fin 1))) 0#32 = 0#1 :=
    eq_zero_of_ne_one fun h1 =>
      absurd ((StableHlo.Predicate.slt_iff_toNat (by omega) (by decide)).mp h1) (Nat.not_lt_zero _)
  rw [val_main_call0_v5_apply, e, val_main_call0_v4_apply, val_main_call0_v1_apply, val_main_call0_v0_apply,
    val_main_call0_c_apply, hs, select_zero]

/-- The range test of the gather passes at a row whose target is a column's number. -/
theorem inRange (r : Fin 4096) (a b : Fin 1)
    (h : (val_main_v2 (F := Ideal) x1 (ix2 r (0 : Fin 1))).toNat < 32000) :
    val_main_call0_v11 (F := Ideal) x1 (ix3 r a b) = 1#1 := by
  have h31999 : (31999#32 : BitVec 32).toNat = 31999 := by decide
  rw [val_main_call0_v11_apply, val_main_call0_v7_apply, val_main_call0_v10_apply, val_main_call0_v6_apply,
    val_main_call0_c_2_apply, val_main_call0_v9_apply, val_main_call0_v8_apply, val_main_call0_c_1_apply,
    idxWord x1 r a b h,
    (StableHlo.Predicate.sge_iff_toNat (by omega) (by decide)).mpr (Nat.zero_le _),
    (StableHlo.Predicate.sle_iff_toNat (by omega) (by decide)).mpr (by omega)]
  decide

/-- So, when every target is a column's number, the test reduced over its unit axis passes at every row. -/
theorem maskOne (hall : ∀ i : SR1.Idx, (val_main_v2 (F := Ideal) x1 i).toNat < 32000) (j : S4096x1.Idx) :
    val_main_call0_v12 (F := Ideal) x1 j = 1#1 := by
  unfold val_main_call0_v12
  rw [Host.reduce_eq_foldl]
  refine foldl_andi_one _ _ (fun n _ => ?_)
  obtain ⟨r, a, b, rfl⟩ : ∃ (r : Fin 4096) (a b : Fin 1), n = ix3 r a b := ⟨n 0, n 1, n 2, eq_ix3 n⟩
  exact inRange x1 r a b (hall _)

/-- The gather reads, at row r, the table's entry at the row's target. -/
theorem gathered (r : Fin 4096) (h : (val_main_v2 (F := Ideal) x1 (ix2 r (0 : Fin 1))).toNat < 32000) :
    val_main_call0_v13 (F := Ideal) x0 x1 (ix2 r (0 : Fin 1))
      = val_main_v0 (F := Ideal) x0 (ix2 r ⟨(val_main_v2 (F := Ideal) x1 (ix2 r (0 : Fin 1))).toNat, h⟩) := by
  unfold val_main_call0_v13
  have hw := idxWord x1 r (0 : Fin 1) (0 : Fin 1) h
  have hint : (val_main_call0_v5 (F := Ideal) x1 (ix3 r (0 : Fin 1) (0 : Fin 1))).toInt
      = ((val_main_v2 (F := Ideal) x1 (ix2 r (0 : Fin 1))).toNat : Int) := by
    rw [hw]; exact StableHlo.Predicate.toInt_eq_toNat_of_lt (by omega)
  refine (Cert.GatherRows.gather_rows_apply_of_lt (R := 4096) (C := 32000) (P := 1) (w := 32)
    gather_S4096x32000_S4096x1x1_S4096x1_n_1_0_0_1_2_11 rfl rfl rfl rfl rfl rfl rfl
    (val_main_v0 (F := Ideal) x0) (val_main_call0_v5 (F := Ideal) x1) r (0 : Fin 1)
    (by rw [hint]; omega) (by rw [hint]; omega)).trans ?_
  refine congrArg (val_main_v0 (F := Ideal) x0) (congrArg (ix2 r) (Fin.ext ?_))
  show (val_main_call0_v5 (F := Ideal) x1 (ix3 r (0 : Fin 1) (0 : Fin 1))).toInt.toNat
    = (val_main_v2 (F := Ideal) x1 (ix2 r (0 : Fin 1))).toNat
  rw [hint]; omega

/-- The entry the reference takes at row r's target is the comparison sum's. -/
theorem target_entry (hall : ∀ i : SR1.Idx, (val_main_v2 (F := Ideal) x1 i).toNat < 32000) (r : Fin 4096) :
    val_main_v4 (F := Ideal) x0 x1 (ix1 r)
      = pick (fun v => val_main_v0 (F := Ideal) x0 (ix2 r v)) (val_main_v2 (F := Ideal) x1 (ix2 r (0 : Fin 1))) := by
  have h := hall (ix2 r (0 : Fin 1))
  have e : idx_main_v4 (ix1 r) = ix2 r (0 : Fin 1) := by
    funext a; apply Fin.ext
    match a with
    | ⟨0, _⟩ => show r.val / 1 = r.val; omega
    | ⟨1, _⟩ => rfl
  rw [val_main_v4_apply, e, val_main_v3_apply, maskOne x1 hall, select_one, gathered x0 x1 r h, pick_of_lt _ _ h]

/-- The row's sum, from zero. -/
theorem row_sum (r : Fin 4096) :
    val_main_v7 (F := Ideal) x0 (ix1 r) = ∑ v : Fin 32000, val_main_v0 (F := Ideal) x0 (ix2 r v) := by
  rw [val_main_v7_apply, val_main_cst_apply]
  show Ideal.ofBits .f32 0x00000000#32 + _ = _
  rw [Ideal.ofBits_zero_f32, zero_add]
  exact Finset.sum_congr rfl fun k _ => congrArg _ (funext fun a => Fin.ext (by
    match a with
    | ⟨0, _⟩ => rfl
    | ⟨1, _⟩ => rfl))

/-- The padding entry of row r: the table at (r, 0). -/
theorem pad_entry (r : Fin 4096) :
    val_main_v6 (F := Ideal) x0 (ix1 r) = val_main_v0 (F := Ideal) x0 (ix2 r (⟨0, by decide⟩ : Fin 32000)) := by
  rw [val_main_v6_apply, val_main_v5_apply]
  exact congrArg _ (funext fun a => Fin.ext (by
    match a with
    | ⟨0, _⟩ => show r.val / 1 = r.val; omega
    | ⟨1, _⟩ => rfl))

/-- The weight of row r. -/
theorem weight (r : Fin 4096) :
    val_main_v21 (F := Ideal) x1 (ix1 r) = keep (val_main_v2 (F := Ideal) x1 (ix2 r (0 : Fin 1))) := by
  have e : idx_main_v2 (ix2 r (0 : Fin 1)) = ix1 r := by
    funext a; apply Fin.ext
    match a with
    | ⟨0, _⟩ => rfl
  rw [val_main_v21_apply, val_main_v20_apply, val_main_v19_apply, val_main_c_apply, val_main_v2_apply, e]
  rfl

/-- Row r's weighted loss in the reference is `rows` at row r. -/
theorem row_eq (hall : ∀ i : SR1.Idx, (val_main_v2 (F := Ideal) x1 i).toNat < 32000) (r : Fin 4096) :
    val_main_v22 (F := Ideal) x0 x1 (ix1 r)
      = rows (val_main_v0 (F := Ideal) x0) (val_main_v2 (F := Ideal) x1) (ix2 r (0 : Fin 1)) := by
  rw [val_main_v22_apply, val_main_v18_apply, val_main_v13_apply, val_main_v11_apply, val_main_v9_apply,
    val_main_v17_apply, val_main_v15_apply, val_main_v14_apply, val_main_v10_apply, val_main_v8_apply,
    val_main_v12_apply, val_main_v16_apply, val_main_cst_0_apply, val_main_cst_1_apply, val_main_cst_2_apply,
    val_main_cst_3_apply, target_entry x0 x1 hall r, row_sum x0 r, pad_entry x0 r, weight x1 r]
  rfl

/-- The reference's result is the whole loss. -/
theorem total_eq (hall : ∀ i : SR1.Idx, (val_main_v2 (F := Ideal) x1 i).toNat < 32000) (i : S_.Idx) :
    val_main_v23 (F := Ideal) x0 x1 i = total (val_main_v0 (F := Ideal) x0) (val_main_v2 (F := Ideal) x1) := by
  rw [val_main_v23_apply, val_main_cst_4_apply]
  unfold total
  rw [sum_SR1, sum_SR]
  exact congrArg₂ (· + ·) rfl (Finset.sum_congr rfl fun r _ => row_eq x0 x1 hall r)

end Cert.Xent.RefValue

end
-- ==== Proof.PreDecode.lean ====
/-
  The precondition, read back. It is the conjunction of "every log-probability is finite" and "every target t has
  0 ≤ t < 32000, signed", each a reduction by "and" over its whole array. The proof uses only the second: a 32-bit word in
  [0, 32000) signed is below 32000 unsigned, i.e. it is a column's number.
-/
import proofs.«407399_j77455440216461_3_alg».proof.Pre_finite_inputs
import proofs.«407399_j77455440216461_3_alg».proof.Proof.Gen.Pre_finite_inputs
import Idealize.ShloMosaic.Lib.ReduceAll
import Idealize.ShloMosaic.Lib.ValueIdx
import Idealize.ShloMosaic.Lib.Pipeline.Value
import Idealize.ShloMosaic.Lib.StableHlo.Predicate

noncomputable section

namespace Cert.Xent

open Idealize.ShloMosaic Cert.Pre_finite_inputs Cert.Pre_finite_inputs.Facts

/-- A word in [0, 32000) signed is below 32000 unsigned. -/
theorem toNat_lt_of_signed (w : BitVec 32) (h0 : IntOp.cmpi .sge w 0#32 = 1#1)
    (h1 : IntOp.cmpi .slt w 32000#32 = 1#1) : w.toNat < 32000 := by
  unfold IntOp.cmpi at h0 h1
  rw [StableHlo.Predicate.ofBool_eq_one_iff] at h0 h1
  simp only [BitVec.slt, BitVec.sle, decide_eq_true_eq] at h0 h1
  have e0 : (0#32 : BitVec 32).toInt = 0 := by decide
  have e1 : (32000#32 : BitVec 32).toInt = 32000 := by decide
  rw [e0] at h0
  rw [e1] at h1
  have hc := BitVec.toInt_eq_toNat_cond w
  have hl := w.isLt
  split_ifs at hc with hlt <;> omega

instance : Subsingleton S_.Idx := ⟨fun a b => funext fun d => d.elim0⟩

/-- Under the precondition every target is a column's number. -/
theorem targets_in_range {F : FTy → Type} [FloatOps F] (a0 : FVec F S4x1024x32000 .f32) (a1 : IVec S4x1024 32)
    (h : Cert.Pre_finite_inputs.fn (F := F) a0 a1 = fun _ => 1#1) (k : S4x1024.Idx) : (a1 k).toNat < 32000 := by
  have e := congrFun h ValueIdx.ix0
  dsimp only [Cert.Pre_finite_inputs.fn] at e
  obtain ⟨-, e9⟩ := IntOp.andi_eq_one.1 e
  have e8 := Host.reduce_andi_all _ _ _ _ _ e9 k
  obtain ⟨hge, hlt⟩ := IntOp.andi_eq_one.1 e8
  have b0 : broadcastInDim S4x1024 ![] bcast_S_S4x1024 (constantI S_ 32 0#32) k = 0#32 :=
    broadcastInDim_apply _ bcast_S_S4x1024 _ k ValueIdx.ix0 (fun a => a.elim0)
  have b1 : broadcastInDim S4x1024 ![] bcast_S_S4x1024 (constantI S_ 32 32000#32) k = 32000#32 :=
    broadcastInDim_apply _ bcast_S_S4x1024 _ k ValueIdx.ix0 (fun a => a.elim0)
  refine toNat_lt_of_signed _ ?_ ?_
  · have := hge; unfold cmpi at this; rw [b0] at this; exact this
  · have := hlt; unfold cmpi at this; rw [b1] at this; exact this

end Cert.Xent

end
-- ==== Proof.lean ====
/-
  Label-smoothed cross entropy over 4 × 1024 rows of 32000 log-probabilities, summed: a kernel that handles 128 rows
  per grid point with the whole vocabulary in one block, against the plain jnp formula.

  Both programs compute, per row with target t,
      (conf · (log conf − lp[t]) + c − sm · ((Σ_v lp[v] − lp[t]) − lp[0])) · [t ≠ 0]
  with the same four single-precision constants, and add the 4096 rows up from zero. They differ only in how lp[t] is
  taken: the reference gathers the entry at column t (wrapping a negative t by 32000 and answering NaN outside the
  table), the kernel sums, over the columns v, the entry where v = t and zero elsewhere. For a target that is a
  column's number, 0 ≤ t < 32000, both are the entry at t; the precondition says every target is one (its other
  conjunct, finiteness of the log-probabilities, is not needed: a sum of one entry and zeros is that entry on the
  extended reals, and everything else is the same expression on both sides). The sums over the rows are one sum, once
  over a [4096, 1] column and once over a length-4096 vector.

  The kernel's frame and the reference's run are the generated ones; the kernel's value is read off its frame run
  (Proof/KernelValue.lean), the reference's stage by stage (Proof/RefValue.lean).
-/
import proofs.«407399_j77455440216461_3_alg».proof.Defs
import proofs.«407399_j77455440216461_3_alg».proof.Proof.Gen.Kernel
import proofs.«407399_j77455440216461_3_alg».proof.Proof.Gen.Kernel.Skeleton
import proofs.«407399_j77455440216461_3_alg».proof.Proof.Gen.Kernel.Launch
import proofs.«407399_j77455440216461_3_alg».proof.Proof.Gen.Kernel.Points
import proofs.«407399_j77455440216461_3_alg».proof.Proof.Gen.Kernel.Frame
import proofs.«407399_j77455440216461_3_alg».proof.Proof.Gen.KernelIdeal
import proofs.«407399_j77455440216461_3_alg».proof.Proof.Gen.KernelIdeal.Skeleton
import proofs.«407399_j77455440216461_3_alg».proof.Proof.Gen.KernelIdeal.Launch
import proofs.«407399_j77455440216461_3_alg».proof.Proof.Gen.KernelIdeal.Points
import proofs.«407399_j77455440216461_3_alg».proof.Proof.Gen.KernelIdeal.Frame
import proofs.«407399_j77455440216461_3_alg».proof.Proof.Gen.ReferenceIdeal
import proofs.«407399_j77455440216461_3_alg».proof.Proof.Gen.ReferenceIdeal.Run
import proofs.«407399_j77455440216461_3_alg».proof.Proof.Gen.ReferenceIdeal.Read
import proofs.«407399_j77455440216461_3_alg».proof.Proof.Gen.Pre_finite_inputs
import proofs.«407399_j77455440216461_3_alg».proof.Proof.KernelValue
import proofs.«407399_j77455440216461_3_alg».proof.Proof.RefValue
import proofs.«407399_j77455440216461_3_alg».proof.Proof.PreDecode
import Idealize.ShloMosaic.Adequacy
import Idealize.ShloMosaic.Init

noncomputable section

namespace Cert.Proof

open Idealize.ShloMosaic Idealize.ShloMosaic.TcCoe Idealize.SL.Sem Cert.Xent

/-- The reference's target column (the targets flattened, then stood up as a column) is the kernel's (the targets
    reshaped to a column): row r of either is the target at (r / 1024, r % 1024). -/
theorem tgt_eq (x1 : (⟨Cert.ReferenceIdeal.S4x1024, .i32⟩ : BufTy).Contents (Elt Ideal))
    (h1 : Cert.KernelIdeal.S4x1024.ShapeCasts Cert.KernelIdeal.S4096x1) :
    Cert.ReferenceIdeal.Read.val_main_v2 (F := Ideal) x1 = shapeCast Cert.KernelIdeal.S4096x1 x1 h1 := by
  funext i
  rw [Cert.ReferenceIdeal.Read.val_main_v2_apply, Cert.ReferenceIdeal.Read.val_main_v1_apply]
  refine (shapeCast_apply x1 h1 i _ ?_).symm
  rw [Shape.rowMajor_val_two, Shape.rowMajor_val_two]
  have h0 : (i 0).val < 4096 := (i 0).isLt
  have h1' : (i 1).val < 1 := (i 1).isLt
  show ((i 0).val / 1024) * 1024 + (i 0).val % 1024 = (i 0).val * 1 + (i 1).val
  omega

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both runs end with the whole loss of the same table and target column. -/
theorem algebraic : Cert.algebraic_KernelIdeal_ReferenceIdeal := by
  intro m ρ m' ρ' hpre hagree
  refine ⟨fun c _ => total (KernelValue.lpArr m c) (KernelValue.tgArr m c), KernelValue.run m ρ, ?_⟩
  refine (θ_run Cert.ReferenceIdeal.defs _ _).mono (fun _ h c => ⟨(h c).1.trans ?_, (h c).2⟩)
    (Cert.ReferenceIdeal.Value.run (F := Ideal) m' ρ')
  have hall : ∀ i : SR1.Idx, (Cert.ReferenceIdeal.Read.val_main_v2 (F := Ideal)
      (m ((c.tc : Thread Cert.KernelIdeal.nD Cert.KernelIdeal.τ).loc Cert.KernelIdeal.main_arg1)) i).toNat < 32000 := by
    intro i
    rw [Cert.ReferenceIdeal.Read.val_main_v2_apply, Cert.ReferenceIdeal.Read.val_main_v1_apply]
    exact targets_in_range (F := Ideal) _ _ (hpre c) _
  rw [Cert.ReferenceIdeal.Read.val_main_v23_eq, (hagree c).1, (hagree c).2]
  funext i
  rw [RefValue.total_eq _ _ hall i]
  show total _ _ = total (KernelValue.lpArr m c) (KernelValue.tgArr m c)
  rw [KernelValue.lpArr_eq, KernelValue.tgArr_eq, tgt_eq _ Cert.KernelIdeal.Gen.shapeCasts_S4x1024_S4096x1]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
